-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S30000x2048 : S_.BroadcastsInDim S30000x2048 (![] : Fin 0 → Fin S30000x2048.rank)
  reducesTo_S30000x2048_S_d0_1 : S30000x2048.ReducesTo [0, 1] S_
  bcast_S_S30000 : S_.BroadcastsInDim S30000 (![] : Fin 0 → Fin S30000.rank)
  reducesTo_S30000_S_d0 : S30000.ReducesTo [0] S_

variable [Facts]

def fn_part1 {F : FTy → Type} [FloatOps F] (main_arg4 : FVec F S2048 .f32) (main_arg5 : FVec F S30000x2048 .f32) (main_arg6 : FVec F S30000 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S30000x2048 .f32 := Host.absf main_arg5
  let main_cst_8 : FVec F S_ .f32 := constant S_ .f32 0x7F800000#32
  let main_v25 : FVec F S30000x2048 .f32 := broadcastInDim S30000x2048 ![] bcast_S_S30000x2048 main_cst_8
  let main_v26 : IVec S30000x2048 1 := cmpf .olt main_v24 main_v25
  let main_c_9 : IVec S_ 1 := constantI S_ 1 1#1
  let main_v27 : IVec S_ 1 := (fun x v => Host.reduce IntOp.andi x v reducesTo_S30000x2048_S_d0_1 h_S_) main_v26 main_c_9
  let main_v28 : IVec S_ 1 := andi main_v23 main_v27
  let main_v29 : FVec F S30000 .f32 := Host.absf main_arg6
  let main_cst_10 : FVec F S_ .f32 := constant S_ .f32 0x7F800000#32
  let main_v30 : FVec F S30000 .f32 := broadcastInDim S30000 ![] bcast_S_S30000 main_cst_10
  let main_v31 : IVec S30000 1 := cmpf .olt main_v29 main_v30
  let main_c_11 : IVec S_ 1 := constantI S_ 1 1#1
  let main_v32 : IVec S_ 1 := (fun x v => Host.reduce IntOp.andi x v reducesTo_S30000_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) (main_arg5 : FVec F S30000x2048 .f32) (main_arg6 : FVec F S30000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S_ : Shape := ⟨0, ![]⟩
abbrev S30720x2048 : Shape := ⟨2, ![30720, 2048]⟩
abbrev S30720 : Shape := ⟨1, ![30720]⟩
abbrev S2048x30720 : Shape := ⟨2, ![2048, 30720]⟩
abbrev S1x30720 : Shape := ⟨2, ![1, 30720]⟩
abbrev S4096x30720 : Shape := ⟨2, ![4096, 30720]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩
abbrev S4096x30000 : Shape := ⟨2, ![4096, 30000]⟩

abbrev nBuf : Space → Nat
  | .hbm => 25
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S30000x2048, .f32⟩
  | .hbm, ⟨6, _⟩ => ⟨S30000, .f32⟩
  | .hbm, ⟨7, _⟩ => ⟨S4096x2048, .bf16⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4096x2048, .bf16⟩
  | .hbm, ⟨14, _⟩ => ⟨S_, .i32⟩
  | .hbm, ⟨15, _⟩ => ⟨S_, .f32⟩
  | .hbm, ⟨16, _⟩ => ⟨S30720x2048, .f32⟩
  | .hbm, ⟨17, _⟩ => ⟨S_, .i32⟩
  | .hbm, ⟨18, _⟩ => ⟨S_, .f32⟩
  | .hbm, ⟨19, _⟩ => ⟨S30720, .f32⟩
  | .hbm, ⟨20, _⟩ => ⟨S30720x2048, .bf16⟩
  | .hbm, ⟨21, _⟩ => ⟨S2048x30720, .bf16⟩
  | .hbm, ⟨22, _⟩ => ⟨S1x30720, .f32⟩
  | .hbm, ⟨23, _⟩ => ⟨S4096x30720, .f32⟩
  | .hbm, ⟨24, _⟩ => ⟨S4096x30000, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1536, .bf16⟩
  | .local _ .vmem, ⟨11, _⟩ => ⟨S2048x1536, .bf16⟩
  | .local _ .vmem, ⟨12, _⟩ => ⟨S1x1536, .f32⟩
  | .local _ .vmem, ⟨13, _⟩ => ⟨S1x1536, .f32⟩
  | .local _ .vmem, ⟨14, _⟩ => ⟨S1024x1536, .f32⟩
  | .local _ .vmem, ⟨15, _⟩ => ⟨S1024x1536, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  pads_S30000x2048_S30720x2048_07200_000 : S30000x2048.Pads (![0, 0] : Fin 2 → Nat) ![720, 0] ![0, 0] S30720x2048
  h_S_ : 0 < S_.numel
  pads_S30000_S30720_07200 : S30000.Pads (![0] : Fin 1 → Nat) ![720] ![0] S30720
  transposes_S30720x2048_S2048x30720_1_0 : S30720x2048.Transposes [1, 0] S2048x30720
  shapeCasts_S30720_S1x30720 : S30720.ShapeCasts S1x30720
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  slices_S4096x30720_S4096x30000_0_0 : S4096x30720.Slices ![0, 0] S4096x30000
  dot_S512x2048_S2048x2048_S512x2048_1_0_0_1_n_n_wf : DotDims.WF S512x2048 S2048x2048 S512x2048 [1] [0] [0] [1] [] []
  dot_S1024x2048_S2048x1536_S1024x1536_1_0_0_1_n_n_wf : DotDims.WF S1024x2048 S2048x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .bf16 = 32 ∨ (Rect.block (s := S4096x2048) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1536.size a ≤ S2048x30720.size a
  hwx1_1 : ∀ i : grid1.Coords, EltTy.bits .bf16 = 32 ∨ (Rect.block (s := S2048x30720) S2048x1536.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x30720.size a
  hwx1_2 : ∀ i : grid1.Coords, EltTy.bits .f32 = 32 ∨ (Rect.block (s := S1x30720) S1x1536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1536.size a ≤ S4096x30720.size a
  hwx1_3 : ∀ i : grid1.Coords, EltTy.bits .f32 = 32 ∨ (Rect.block (s := S4096x30720) S1024x1536.size (cc1_transform_3 i) (hinb1_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x2048_S2048x1536_S1024x1536_1_0_0_1_n_n : DotDims S1024x2048 S2048x1536 S1024x1536 where
  lhsContracting := [1]
  rhsContracting := [0]
  lhsNonContracting := [0]
  rhsNonContracting := [1]
  lhsBatch := []
  rhsBatch := []
  wf := dot_S1024x2048_S2048x1536_S1024x1536_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x30000 : Shape := ⟨2, ![4096, 30000]⟩
abbrev S1x30000 : Shape := ⟨2, ![1, 30000]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S30000x2048, .f32⟩
  | .hbm, ⟨6, _⟩ => ⟨S30000, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x30000, .f32⟩
  | .hbm, ⟨41, _⟩ => ⟨S1x30000, .f32⟩
  | .hbm, ⟨42, _⟩ => ⟨S4096x30000, .f32⟩
  | .hbm, ⟨43, _⟩ => ⟨S4096x30000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S30000_S1x30000_1 : S30000.BroadcastsInDim S1x30000 (![1] : Fin 1 → Fin S1x30000.rank)
  bcast_S1x30000_S4096x30000_0_1 : S1x30000.BroadcastsInDim S4096x30000 (![0, 1] : Fin 2 → Fin S4096x30000.rank)
  dot_S4096x2048_S2048x2048_S4096x2048_1_1_0_0_n_n_wf : DotDims.WF S4096x2048 S2048x2048 S4096x2048 [1] [1] [0] [0] [] []
  dot_S4096x2048_S30000x2048_S4096x30000_1_1_0_0_n_n_wf : DotDims.WF S4096x2048 S30000x2048 S4096x30000 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf
def dot_S4096x2048_S30000x2048_S4096x30000_1_1_0_0_n_n : DotDims S4096x2048 S30000x2048 S4096x30000 where
  lhsContracting := [1]
  rhsContracting := [1]
  lhsNonContracting := [0]
  rhsNonContracting := [0]
  lhsBatch := []
  rhsBatch := []
  wf := dot_S4096x2048_S30000x2048_S4096x30000_1_1_0_0_n_n_wf

class Facts : Prop extends Facts₀ where

variable [Facts]
-- ==== Proof.RowFunctions.lean ====
/-
  The function both programs compute, one row at a time, on the extended reals.

  A row `x` of 2048 entries goes through an affine map, `h o = (Σ_k x k · W o k) + B o`. The row `h` is
  normalised: with `μ = (Σ_o h o) / 2048` and `σ² = (Σ_o (h o - μ)²) / 2048`, entry `o` becomes
  `(h o - μ) · rsqrt (σ² + ε) · g o + b o`. An output entry is a second affine read of the normalised row,
  `(Σ_k y k · w k) + c`. The divisor 2048 and `ε` are the values of the two f32 words both programs
  spell, so neither is ever evaluated.
-/
import Idealize.ShloMosaic.PureOps.Ideal
import Idealize.ShloMosaic.Lib.ValueIdx

noncomputable section

namespace Cert.RowFunctions

open Idealize.ShloMosaic Idealize.ShloMosaic.ValueIdx

/-- The row length as both programs write it: the f32 word of 2048. -/
abbrev rowLen : EReal := Ideal.ofBits .f32 0x45000000#32
/-- The variance offset as both programs write it: the f32 word nearest 1e-5. -/
abbrev varEps : EReal := Ideal.ofBits .f32 0x3727C5AC#32

/-- The mean of a row: its sum over the row length. -/
def mean (h : Fin 2048 → EReal) : EReal := Ideal.div (∑ o, h o) rowLen

/-- The normalised row: centred, scaled by the reciprocal square root of the offset variance, then by `g`, shifted by `b`. -/
def normRow (h g b : Fin 2048 → EReal) (o : Fin 2048) : EReal :=
  (h o - mean h) * Ideal.rsqrt (mean (fun o' => (h o' - mean h) * (h o' - mean h)) + varEps) * g o + b o

/-- One entry of an affine map of a row: the row against row `o` of the weights, plus the bias. -/
def affine (x : Fin 2048 → EReal) (w : Fin 2048 → EReal) (c : EReal) : EReal := (∑ k, x k * w k) + c

/-- Normalisation depends on the row only through its entries. -/
theorem normRow_congr {h h' g g' b b' : Fin 2048 → EReal} (eh : ∀ o, h o = h' o) (eg : ∀ o, g o = g' o) (eb : ∀ o, b o = b' o)
    (o : Fin 2048) : normRow h g b o = normRow h' g' b' o := by
  rw [show h = h' from funext eh, show g = g' from funext eg, show b = b' from funext eb]

/-- An affine entry depends on its two rows only through their entries. -/
theorem affine_congr {x x' w w' : Fin 2048 → EReal} {c c' : EReal} (ex : ∀ k, x k = x' k) (ew : ∀ k, w k = w' k) (ec : c = c') :
    affine x w c = affine x' w' c' := by
  rw [show x = x' from funext ex, show w = w' from funext ew, ec]

/-- The whole result, entry `(n, v)`: row `n` of `x` through the first affine map (weights `w1`, bias `b1`), normalised with scale `g`
    and shift `b`, then read against row `v` of `w3` with bias `b3 v`. -/
def logit (x : (⟨2, ![4096, 2048]⟩ : Shape).Idx → EReal) (w1 : (⟨2, ![2048, 2048]⟩ : Shape).Idx → EReal)
    (b1 g b : (⟨1, ![2048]⟩ : Shape).Idx → EReal) (w3 : (⟨2, ![30000, 2048]⟩ : Shape).Idx → EReal)
    (b3 : (⟨1, ![30000]⟩ : Shape).Idx → EReal) (n : Fin 4096) (v : Fin 30000) : EReal :=
  affine (normRow (fun o => affine (fun k => x (ix2 n k)) (fun k => w1 (ix2 o k)) (b1 (ix1 o))) (fun o => g (ix1 o)) (fun o => b (ix1 o)))
    (fun k => w3 (ix2 v k)) (b3 (ix1 v))

/-- The result array. -/
def logits (x : (⟨2, ![4096, 2048]⟩ : Shape).Idx → EReal) (w1 : (⟨2, ![2048, 2048]⟩ : Shape).Idx → EReal)
    (b1 g b : (⟨1, ![2048]⟩ : Shape).Idx → EReal) (w3 : (⟨2, ![30000, 2048]⟩ : Shape).Idx → EReal)
    (b3 : (⟨1, ![30000]⟩ : Shape).Idx → EReal) : (⟨2, ![4096, 30000]⟩ : Shape).Idx → EReal :=
  fun i => logit x w1 b1 g b w3 b3 (i 0) (i 1)

end Cert.RowFunctions

end
-- ==== Proof.ColumnLayout.lean ====
/-
  Layout operations a row-wise reduction with kept dimensions goes through, read at an index:
  a vector of row values viewed as one column, a column spread across a row, and a lane sum read as the sum over the row.
-/
import Idealize.ShloMosaic.Lib.Pipeline.Value
import Idealize.ShloMosaic.Lib.ValueIdx
import Idealize.ShloMosaic.PureOps.Ideal.Laws

noncomputable section

namespace Cert.ColumnLayout

open Idealize.ShloMosaic Idealize.ShloMosaic.ValueIdx

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` vector of extended reals, read at row `p`, is the sum of that row. -/
theorem laneSum_apply {a b : ℕ} {φ : FTy} (v : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ v acc h hφ hacc (ix1 p) = ∑ o : Fin b, v (ix2 p o) := by
  refine (Ideal.multiReduction_add_single v acc h hφ hacc (ix1 p)).trans ?_
  refine Finset.sum_congr rfl fun o _ => congrArg v ?_
  funext ax
  match ax with
  | ⟨0, _⟩ => exact Fin.ext rfl
  | ⟨1, _⟩ => exact Fin.ext rfl

end Cert.ColumnLayout

end
-- ==== Proof.BodyValues.lean ====
/-
  What each kernel body stores, read at one entry of its block, on the extended reals.

  The second body stores an affine read: entry `(p, q)` is the row `p` of its left block against column `q` of its
  right block, plus the bias row at `q`. The first body does the same to get a row `h`, then normalises every row:
  entry `(p, q)` is `normRow (h p) g b q`. Format changes are the identity on the extended reals, and a product
  accumulated into zero is the plain sum over the contracted index.
-/
import proofs.«130865_j56444460204607_1_alg».proof.Proof.Gen.KernelIdeal.Skeleton
import proofs.«130865_j56444460204607_1_alg».proof.Proof.RowFunctions
import proofs.«130865_j56444460204607_1_alg».proof.Proof.ColumnLayout
import Idealize.ShloMosaic.Lib.ValueLayout

noncomputable section

namespace Cert.KernelIdeal.BodyValues

open Cert.KernelIdeal Cert.KernelIdeal.Gen Idealize.ShloMosaic Idealize.ShloMosaic.ValueIdx Cert.RowFunctions Cert.ColumnLayout

/-! ## The two products, read at an entry -/

theorem lhs_dot512_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_dot512_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_dot512_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_dot512_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The first body's product into zero: entry `(p, o)` is row `p` of the left block against column `o` of the right one. -/
theorem matmul512_apply (a : FVec Ideal S512x2048 .bf16) (b : FVec Ideal S2048x2048 .bf16) (p : Fin 512) (o : Fin 2048) :
    matmul dot_S512x2048_S2048x2048_S512x2048_1_0_0_1_n_n none a b (constant S512x2048 .f32 0x00000000#32) (ix2 p o)
      = ∑ k : Fin 2048, a (ix2 p k) * b (ix2 k o) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p o) ((ValueIdx.contrEquiv1 dot_S512x2048_S2048x2048_S512x2048_1_0_0_1_n_n 2048 rfl rfl).symm k) = ix2 p k := funext fun ax => Fin.ext (by
    match ax with
    | ⟨0, _⟩ => exact lhs_dot512_0 _ _
    | ⟨1, _⟩ => exact (lhs_dot512_1 _ _).trans hk)
  have er : dot_S512x2048_S2048x2048_S512x2048_1_0_0_1_n_n.rhsIdx (ix2 p o) ((ValueIdx.contrEquiv1 dot_S512x2048_S2048x2048_S512x2048_1_0_0_1_n_n 2048 rfl rfl).symm k) = ix2 k o := funext fun ax => Fin.ext (by
    match ax with
    | ⟨0, _⟩ => exact (rhs_dot512_0 _ _).trans hk
    | ⟨1, _⟩ => exact rhs_dot512_1 _ _)
  rw [el, er]

theorem lhs_dot1024_0 (i : S1024x1536.Idx) (q : dot_S1024x2048_S2048x1536_S1024x1536_1_0_0_1_n_n.contr.Idx) :
    (dot_S1024x2048_S2048x1536_S1024x1536_1_0_0_1_n_n.lhsIdx i q 0).val = (i 0).val := by
  unfold DotDims.lhsIdx
  rw [dif_neg (show ¬(0 : Fin S1024x2048.rank) ∈ dot_S1024x2048_S2048x1536_S1024x1536_1_0_0_1_n_n.lhsBatch by decide), dif_pos (show (0 : Fin S1024x2048.rank) ∈ dot_S1024x2048_S2048x1536_S1024x1536_1_0_0_1_n_n.lhsNonContracting by decide)]
  rfl
theorem lhs_dot1024_1 (i : S1024x1536.Idx) (q : dot_S1024x2048_S2048x1536_S1024x1536_1_0_0_1_n_n.contr.Idx) :
    (dot_S1024x2048_S2048x1536_S1024x1536_1_0_0_1_n_n.lhsIdx i q 1).val = (q ⟨0, by decide⟩).val :=
  dot_S1024x2048_S2048x1536_S1024x1536_1_0_0_1_n_n.lhsIdx_val_of_single rfl i q
theorem rhs_dot1024_0 (i : S1024x1536.Idx) (q : dot_S1024x2048_S2048x1536_S1024x1536_1_0_0_1_n_n.contr.Idx) :
    (dot_S1024x2048_S2048x1536_S1024x1536_1_0_0_1_n_n.rhsIdx i q 0).val = (q ⟨0, by decide⟩).val :=
  dot_S1024x2048_S2048x1536_S1024x1536_1_0_0_1_n_n.rhsIdx_val_of_single rfl i q
theorem rhs_dot1024_1 (i : S1024x1536.Idx) (q : dot_S1024x2048_S2048x1536_S1024x1536_1_0_0_1_n_n.contr.Idx) :
    (dot_S1024x2048_S2048x1536_S1024x1536_1_0_0_1_n_n.rhsIdx i q 1).val = (i 1).val := by
  unfold DotDims.rhsIdx
  rw [dif_neg (show ¬(1 : Fin S2048x1536.rank) ∈ dot_S1024x2048_S2048x1536_S1024x1536_1_0_0_1_n_n.rhsBatch by decide), dif_pos (show (1 : Fin S2048x1536.rank) ∈ dot_S1024x2048_S2048x1536_S1024x1536_1_0_0_1_n_n.rhsNonContracting by decide)]
  rfl

/-- The second body's product into zero: entry `(p, q)` is row `p` of the left block against column `q` of the right one. -/
theorem matmul1024_apply (a : FVec Ideal S1024x2048 .bf16) (b : FVec Ideal S2048x1536 .bf16) (p : Fin 1024) (q : Fin 1536) :
    matmul dot_S1024x2048_S2048x1536_S1024x1536_1_0_0_1_n_n none a b (constant S1024x1536 .f32 0x00000000#32) (ix2 p q)
      = ∑ k : Fin 2048, a (ix2 p k) * b (ix2 k q) := by
  simp only [matmul]
  rw [Ideal.matmul_constant_zero_apply, ← Equiv.sum_comp (ValueIdx.contrEquiv1 dot_S1024x2048_S2048x1536_S1024x1536_1_0_0_1_n_n 2048 rfl rfl).symm]
  refine Finset.sum_congr rfl fun k _ => ?_
  have hk := ValueIdx.contrEquiv1_symm_val dot_S1024x2048_S2048x1536_S1024x1536_1_0_0_1_n_n 2048 rfl rfl k
  have el : dot_S1024x2048_S2048x1536_S1024x1536_1_0_0_1_n_n.lhsIdx (ix2 p q) ((ValueIdx.contrEquiv1 dot_S1024x2048_S2048x1536_S1024x1536_1_0_0_1_n_n 2048 rfl rfl).symm k) = ix2 p k := funext fun ax => Fin.ext (by
    match ax with
    | ⟨0, _⟩ => exact lhs_dot1024_0 _ _
    | ⟨1, _⟩ => exact (lhs_dot1024_1 _ _).trans hk)
  have er : dot_S1024x2048_S2048x1536_S1024x1536_1_0_0_1_n_n.rhsIdx (ix2 p q) ((ValueIdx.contrEquiv1 dot_S1024x2048_S2048x1536_S1024x1536_1_0_0_1_n_n 2048 rfl rfl).symm k) = ix2 k q := funext fun ax => Fin.ext (by
    match ax with
    | ⟨0, _⟩ => exact (rhs_dot1024_0 _ _).trans hk
    | ⟨1, _⟩ => exact rhs_dot1024_1 _ _)
  rw [el, er]

/-! ## The second body: an affine read -/

/-- Entry `(p, q)` of what the second body stores. -/
theorem proj_entry (x0 : Vec Ideal S1024x2048 .bf16) (x1 : Vec Ideal S2048x1536 .bf16) (x2 : Vec Ideal S1x1536 .f32) (p : Fin 1024) (q : Fin 1536) :
    k1_pay1 (F := Ideal) x0 x1 x2 (ix2 p q) = affine (fun k => x0 (ix2 p k)) (fun k => x1 (ix2 k q)) (x2 (ix2 (0 : Fin 1) q)) := by
  unfold k1_pay1 affine
  simp only [shapeCast_self]
  exact congrArg₂ (fun u v : EReal => u + v) (matmul1024_apply x0 x1 p q) (ValueIdx.broadcastTo_1b_ab_apply x2 _ p q)

/-! ## The first body: every row normalised -/

/-- A reciprocal square root taken entry by entry. -/
theorem rsqrt_apply {s : Shape} (a : FVec Ideal s .f32) (i : s.Idx) : rsqrt a i = Ideal.rsqrt (a i) := rfl

/-- The kept-dimension mean of a block's rows, as the body spells it (lane sum, column view, division by the row
    length): at row `p` it is the mean of that row. -/
theorem meanColumn_apply (v : FVec Ideal S512x2048 .f32) (hφ : FKind.Formats .f32)
    (hacc : (0x00000000#32 : BitVec 32) = 0x00000000#32) (p : Fin 512) (u : Fin 1) :
    divf (shapeCast S512x1 (multiReduction .add [1] S512 v 0x00000000#32 reduces_S512x2048_S512 hφ hacc) shapeCasts_S512_S512x1)
        (broadcast S512x1 (FloatOps.ofBits (F := Ideal) .f32 0x45000000#32)) (ix2 p u)
      = mean (fun o => v (ix2 p o)) :=
  congrArg (Ideal.div · rowLen) ((shapeCast_a_a1_apply _ _ p u).trans (laneSum_apply v _ _ _ _ p))

/-- Entry `(p, q)` of what the first body stores: row `p` of the left block through the affine map, normalised, at `q`. -/
theorem norm_entry (x0 : FVec Ideal S512x2048 .bf16) (x1 : FVec Ideal S2048x2048 .bf16) (x2 x3 x4 : FVec Ideal S1x2048 .f32)
    (p : Fin 512) (q : Fin 2048) :
    k0_pay1 (F := Ideal) x0 x1 x2 x3 x4 (ix2 p q)
      = normRow (fun o => affine (fun k => x0 (ix2 p k)) (fun k => x1 (ix2 k o)) (x2 (ix2 (0 : Fin 1) o)))
          (fun o => x3 (ix2 (0 : Fin 1) o)) (fun o => x4 (ix2 (0 : Fin 1) o)) q := by
  -- the block before normalisation, and its row `p`
  let blk : FVec Ideal S512x2048 .f32 :=
    addf (matmul dot_S512x2048_S2048x2048_S512x2048_1_0_0_1_n_n none x0 x1 (constant S512x2048 .f32 0x00000000#32))
      (broadcastTo S512x2048 x2 broadcasts_S1x2048_S512x2048)
  let h : Fin 2048 → EReal := fun o => affine (fun k => x0 (ix2 p k)) (fun k => x1 (ix2 k o)) (x2 (ix2 (0 : Fin 1) o))
  have hH : ∀ o : Fin 2048, blk (ix2 p o) = h o := fun o =>
    congrArg₂ (fun u v : EReal => u + v) (matmul512_apply x0 x1 p o) (ValueIdx.broadcastTo_1b_ab_apply x2 _ p o)
  -- the mean column of the block at row `p` is the mean of that row
  have hM : ∀ (hφ : FKind.Formats .f32) (hacc : (0x00000000#32 : BitVec 32) = 0x00000000#32),
      divf (shapeCast S512x1 (multiReduction .add [1] S512 blk 0x00000000#32 reduces_S512x2048_S512 hφ hacc) shapeCasts_S512_S512x1)
          (broadcast S512x1 (FloatOps.ofBits (F := Ideal) .f32 0x45000000#32)) (ix2 p (0 : Fin 1)) = mean h :=
    fun hφ hacc => (meanColumn_apply blk hφ hacc p 0).trans (congrArg mean (funext hH))
  unfold k0_pay1
  simp only [shapeCast_self]
  simp only [truncf_apply, addf_apply, mulf_apply, subf_apply, rsqrt_apply, broadcast_apply, broadcastTo_a1_ab_apply,
    ValueIdx.broadcastTo_1b_ab_apply, matmul512_apply]
  unfold normRow
  refine congrArg₂ (fun u v : EReal => u + v) (congrArg₂ (fun u v : EReal => u * v) (congrArg₂ (fun u v : EReal => u * v)
    (congrArg₂ (fun u v : EReal => u - v) rfl (hM _ _)) (congrArg Ideal.rsqrt (congrArg₂ (fun u v : EReal => u + v) ?_ rfl))) rfl) rfl
  refine (meanColumn_apply _ _ _ p 0).trans (congrArg mean (funext fun o => ?_))
  have hC : ∀ (hφ : FKind.Formats .f32) (hacc : (0x00000000#32 : BitVec 32) = 0x00000000#32),
      subf blk (broadcastTo S512x2048
        (divf (shapeCast S512x1 (multiReduction .add [1] S512 blk 0x00000000#32 reduces_S512x2048_S512 hφ hacc) shapeCasts_S512_S512x1)
          (broadcast S512x1 (FloatOps.ofBits (F := Ideal) .f32 0x45000000#32))) broadcasts_S512x1_S512x2048) (ix2 p o)
        = h o - mean h :=
    fun hφ hacc => congrArg₂ (fun u v : EReal => u - v) (hH o) ((broadcastTo_a1_ab_apply _ _ p o).trans (hM hφ hacc))
  exact congrArg₂ (fun u v : EReal => u * v) (hC _ _) (hC _ _)

end Cert.KernelIdeal.BodyValues

end
-- ==== Proof.NormArray.lean ====
/-
  The array the first region leaves, as one function of the arrays it finds.

  The grid has 8 points; point `t` reads rows `512·t …` of the left array and the whole of the right array and of the three
  rows (bias, scale, shift), and writes rows `512·t …` of the output. Each output row is the normalised affine image of its
  own input row, whatever block it is in; the eight blocks tile the output.
-/
import proofs.«130865_j56444460204607_1_alg».proof.Proof.Gen.KernelIdeal.Frame
import proofs.«130865_j56444460204607_1_alg».proof.Proof.BodyValues

set_option maxRecDepth 16384

noncomputable section

namespace Cert.KernelIdeal.NormArray

open Cert.KernelIdeal Cert.KernelIdeal.Gen Cert.KernelIdeal.BodyValues Cert.RowFunctions
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- Row `n` of the left array through the affine map: entry `o` is the row against column `o` of the right array, plus the bias at `o`. -/
def hidden (c : Dev nD) (n : Fin 4096) (o : Fin 2048) : EReal :=
  affine (fun k => V c main_v0 (ix2 n k)) (fun k => V c main_v2 (ix2 k o)) (V c main_v3 (ix2 (0 : Fin 1) o))

/-- Entry `(n, o)` of the normalised array. -/
def entry (c : Dev nD) (n : Fin 4096) (o : Fin 2048) : EReal :=
  normRow (hidden V c n) (fun o' => V c main_v4 (ix2 (0 : Fin 1) o')) (fun o' => V c main_v5 (ix2 (0 : Fin 1) o')) o

/-- The normalised array. -/
def arr (c : Dev nD) : S4096x2048.Idx → Elt Ideal .bf16 := fun i => entry V c (i 0) (i 1)

/-- The printed index maps over the grid: the left window and the output move together down the rows; every other window stays. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 7 :=
  (by decide +kernel : ∀ t : Fin grid0.N, _)

/-- Every row block of the output is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- What point `t` writes back is block `t` of the normalised array. -/
theorem flushed_eq (c : Dev nD) (t : Fin cfg0.N) :
    (dat0 V c).flushed 5 t = ((cfg0.win 5).blk t).view.read (Elt Ideal) (arr V c) := by
  show (cfg0.win 5).cut (grid0.coords t) ((dat0 V c).after 5 t) = _
  rw [after0_5]
  unfold out0_5
  rw [View.canon_unit_zero zeroOffsets]
  simp only [View.ld_unit_zero (S := S512x2048) zeroOffsets, View.ld_unit_zero (S := S2048x2048) zeroOffsets, View.ld_unit_zero (S := S1x2048) zeroOffsets]
  obtain ⟨e0, e1, e2, e3, e4, e5, e6, e7, e8, e9, e10, -⟩ := idx_facts t
  funext j
  obtain ⟨p, q, rfl⟩ : ∃ (p : Fin 512) (q : Fin 2048), j = ix2 p q := ⟨j 0, j 1, eq_ix2 j⟩
  refine (norm_entry (iblk0 V c 0 t) (iblk0 V c 1 t) (iblk0 V c 2 t) (iblk0 V c 3 t) (iblk0 V c 4 t) p q).trans ?_
  show _ = entry V c ((((cfg0.win 5).blk t).view.emb (ix2 p q)) 0) ((((cfg0.win 5).blk t).view.emb (ix2 p q)) 1)
  have hq : ((((cfg0.win 5).blk t).view.emb (ix2 p q)) 1) = q := Fin.ext (by
    show win0_5.index t (1 : Fin 2) * 2048 + 1 * q.val = q.val; omega)
  rw [hq]
  unfold entry hidden
  refine normRow_congr (fun o => affine_congr (fun k => ?_) (fun k => ?_) ?_) (fun o => ?_) (fun o => ?_) q
  · show V c main_v0 (((cfg0.win 0).blk t).view.emb (ix2 p k)) = V c main_v0 (ix2 _ k)
    refine congrArg (V c main_v0) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 2048 + 1 * k.val = k.val; omega
  · show V c main_v2 (((cfg0.win 1).blk t).view.emb (ix2 k o)) = V c main_v2 (ix2 k o)
    refine congrArg (V c main_v2) (funext fun a => Fin.ext ?_)
    match a with
    | ⟨0, _⟩ => show win0_1.index t (0 : Fin 2) * 2048 + 1 * k.val = k.val; omega
    | ⟨1, _⟩ => show win0_1.index t (1 : Fin 2) * 2048 + 1 * o.val = o.val; omega
  · show V c main_v3 (((cfg0.win 2).blk t).view.emb (ix2 (0 : Fin 1) o)) = V c main_v3 (ix2 (0 : Fin 1) o)
    refine congrArg (V c main_v3) (funext fun a => Fin.ext ?_)
    match a with
    | ⟨0, _⟩ => show win0_2.index t (0 : Fin 2) * 1 + 1 * 0 = 0; omega
    | ⟨1, _⟩ => show win0_2.index t (1 : Fin 2) * 2048 + 1 * o.val = o.val; omega
  · show V c main_v4 (((cfg0.win 3).blk t).view.emb (ix2 (0 : Fin 1) o)) = V c main_v4 (ix2 (0 : Fin 1) o)
    refine congrArg (V c main_v4) (funext fun a => Fin.ext ?_)
    match a with
    | ⟨0, _⟩ => show win0_3.index t (0 : Fin 2) * 1 + 1 * 0 = 0; omega
    | ⟨1, _⟩ => show win0_3.index t (1 : Fin 2) * 2048 + 1 * o.val = o.val; omega
  · show V c main_v5 (((cfg0.win 4).blk t).view.emb (ix2 (0 : Fin 1) o)) = V c main_v5 (ix2 (0 : Fin 1) o)
    refine congrArg (V c main_v5) (funext fun a => Fin.ext ?_)
    match a with
    | ⟨0, _⟩ => show win0_4.index t (0 : Fin 2) * 1 + 1 * 0 = 0; omega
    | ⟨1, _⟩ => show win0_4.index t (1 : Fin 2) * 2048 + 1 * o.val = o.val; omega

/-- An index of the output is in point `t`'s block iff each coordinate is in the block's range on its axis. -/
theorem mem_blk (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v6).slice (win0_5.rect t)).set ↔ _
  rw [View.set_slice_whole, Rect.mem_set_unit]
  exact Iff.rfl

/-- The blocks cover the output: row `n` lies in row block `n / 512`. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- The output array after the region is the normalised array. -/
theorem final (c : Dev nD) : (dat0 V c).arrAt 5 cfg0.N = arr V c :=
  (dat0 V c).arrAt_eq_of_cover 5 (arr V c) (fun t _ => flushed_eq V c t) (cover)

end Cert.KernelIdeal.NormArray

end
-- ==== Proof.ProjArray.lean ====
/-
  The array the second region leaves, as one function of the arrays it finds.

  The grid is 4 × 20; point `(i, j)` reads rows `1024·i …` of the left array whole across, columns `1536·j …` of the right
  array whole down, the same columns of the bias row, and writes block `(i, j)` of the output. Every entry of the block is
  the affine read of its own row and column, which does not depend on the block it sits in; the blocks tile the
  output, so the whole array is that one function.
-/
import proofs.«130865_j56444460204607_1_alg».proof.Proof.Gen.KernelIdeal.Frame
import proofs.«130865_j56444460204607_1_alg».proof.Proof.BodyValues

set_option maxRecDepth 16384

noncomputable section

namespace Cert.KernelIdeal.ProjArray

open Cert.KernelIdeal Cert.KernelIdeal.Gen Cert.KernelIdeal.BodyValues Cert.RowFunctions
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- Entry `(n, v)` of the projected array: row `n` of the left array against column `v` of the right one, plus the bias at `v`. -/
def entry (c : Dev nD) (n : Fin 4096) (v : Fin 30720) : EReal :=
  affine (fun k => V c main_v6 (ix2 n k)) (fun k => V c main_v10 (ix2 k v)) (V c main_v11 (ix2 (0 : Fin 1) v))

/-- The projected array. -/
def arr (c : Dev nD) : S4096x30720.Idx → Elt Ideal .f32 := fun i => entry V c (i 0) (i 1)

/-- The printed index maps over the grid: the left window moves with the output's row block and spans every column; the right
    window and the bias move with the output's column block. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 3 ∧ win1_3.index t (1 : Fin 2) ≤ 19 :=
  (by decide +kernel : ∀ t : Fin grid1.N, _)

/-- Every block of the output is some point's. -/
theorem idx_onto : ∀ (q0 : Fin 4) (q1 : Fin 20), ∃ t : Fin cfg1.N, win1_3.index t = ![q0.val, q1.val] :=
  (by decide +kernel : ∀ (q0 : Fin 4) (q1 : Fin 20), ∃ t : Fin grid1.N, win1_3.index t = ![q0.val, q1.val])

/-- What point `t` writes back is block `t` of the projected array. -/
theorem flushed_eq (c : Dev nD) (t : Fin cfg1.N) :
    (dat1 V c).flushed 3 t = ((cfg1.win 3).blk t).view.read (Elt Ideal) (arr V c) := by
  show (cfg1.win 3).cut (grid1.coords t) ((dat1 V c).after 3 t) = _
  rw [after1_3]
  unfold out1_3
  rw [View.canon_unit_zero zeroOffsets]
  simp only [View.ld_unit_zero (S := S1024x2048) zeroOffsets, View.ld_unit_zero (S := S2048x1536) zeroOffsets, View.ld_unit_zero (S := S1x1536) zeroOffsets]
  obtain ⟨e0, e1, e2, e3, e4, e5, -, -⟩ := idx_facts t
  funext j
  obtain ⟨p, q, rfl⟩ : ∃ (p : Fin 1024) (q : Fin 1536), j = ix2 p q := ⟨j 0, j 1, eq_ix2 j⟩
  refine (proj_entry (iblk1 V c 0 t) (iblk1 V c 1 t) (iblk1 V c 2 t) p q).trans ?_
  show _ = entry V c ((((cfg1.win 3).blk t).view.emb (ix2 p q)) 0) ((((cfg1.win 3).blk t).view.emb (ix2 p q)) 1)
  unfold entry
  refine affine_congr (fun k => ?_) (fun k => ?_) ?_
  · show V c main_v6 (((cfg1.win 0).blk t).view.emb (ix2 p k)) = V c main_v6 (ix2 _ k)
    refine congrArg (V c main_v6) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 2048 + 1 * k.val = k.val; omega
  · show V c main_v10 (((cfg1.win 1).blk t).view.emb (ix2 k q)) = V c main_v10 (ix2 k _)
    refine congrArg (V c main_v10) (funext fun a => Fin.ext ?_)
    match a with
    | ⟨0, _⟩ => show win1_1.index t (0 : Fin 2) * 2048 + 1 * k.val = k.val; omega
    | ⟨1, _⟩ => show win1_1.index t (1 : Fin 2) * 1536 + 1 * q.val = win1_3.index t (1 : Fin 2) * 1536 + 1 * q.val; omega
  · show V c main_v11 (((cfg1.win 2).blk t).view.emb (ix2 (0 : Fin 1) q)) = V c main_v11 (ix2 (0 : Fin 1) _)
    refine congrArg (V c main_v11) (funext fun a => Fin.ext ?_)
    match a with
    | ⟨0, _⟩ => show win1_2.index t (0 : Fin 2) * 1 + 1 * 0 = 0; omega
    | ⟨1, _⟩ => show win1_2.index t (1 : Fin 2) * 1536 + 1 * q.val = win1_3.index t (1 : Fin 2) * 1536 + 1 * q.val; omega

/-- An index of the output is in point `t`'s block iff each coordinate is in the block's range on its axis. -/
theorem mem_blk (t : Fin cfg1.N) (i : S4096x30720.Idx) :
    i ∈ ((cfg1.win 3).blk t).view.set ↔ ∀ a : Fin 2, win1_3.index t a * S1024x1536.size a ≤ (i a).val ∧ (i a).val < win1_3.index t a * S1024x1536.size a + S1024x1536.size a := by
  show i ∈ ((View.whole main_v12).slice (win1_3.rect t)).set ↔ _
  rw [View.set_slice_whole, Rect.mem_set_unit]
  exact Iff.rfl

/-- The blocks cover the output: entry `(n, v)` lies in the block of row block `n / 1024` and column block `v / 1536`. -/
theorem cover (i : S4096x30720.Idx) : ∃ t : Fin cfg1.N, (cfg1.win 3).flush t = true ∧ i ∈ ((cfg1.win 3).blk t).view.set := by
  have hi0 : (i 0).val < 4096 := (i 0).isLt
  have hi1 : (i 1).val < 30720 := (i 1).isLt
  obtain ⟨t, ht⟩ := idx_onto ⟨(i 0).val / 1024, by omega⟩ ⟨(i 1).val / 1536, by omega⟩
  have q0 : win1_3.index t (0 : Fin 2) = (i 0).val / 1024 := congrFun ht 0
  have q1 : win1_3.index t (1 : Fin 2) = (i 1).val / 1536 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1536 ≤ (i 1).val ∧ (i 1).val < win1_3.index t (1 : Fin 2) * 1536 + 1536; omega

/-- The output array after the region is the projected array. -/
theorem final (c : Dev nD) : (dat1 V c).arrAt 3 cfg1.N = arr V c :=
  (dat1 V c).arrAt_eq_of_cover 3 (arr V c) (fun t _ => flushed_eq V c t) (cover)

end Cert.KernelIdeal.ProjArray

end
-- ==== Proof.KernelResult.lean ====
/-
  The kernel program's result as one function of its arguments.

  Before the first region the host only changes formats (the identity on the extended reals), transposes the first weight
  matrix and views the three rows as `[1, 2048]`; so the first region's output is the normalised affine image of `x`.
  Between the regions the host pads the second weight matrix and its bias with 720 zero rows, transposes and re-views
  them; the second region's output is the affine read of the normalised rows against those padded columns. The final
  slice keeps the first 30000 columns, where the padded arrays are the arguments themselves.
-/
import proofs.«130865_j56444460204607_1_alg».proof.Proof.NormArray
import proofs.«130865_j56444460204607_1_alg».proof.Proof.ProjArray
import Idealize.ShloMosaic.Lib.StableHlo.Run
import Idealize.ShloMosaic.Lib.ValueLayout
import Idealize.ShloMosaic.Lib.KernelVsHost

set_option maxRecDepth 16384

noncomputable section

namespace Cert.KernelIdeal.KernelResult

open Cert.KernelIdeal Cert.KernelIdeal.Gen Cert.RowFunctions
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## What the first region finds -/

theorem left_apply (c : Dev nD) (n : Fin 4096) (k : Fin 2048) :
    V1 m ρ c main_v0 (ix2 n k) = m ((c : Thread nD τ).loc main_arg0) (ix2 n k) := by
  have e : V1 m ρ c main_v0 = truncf (F := Ideal) .bf16 (m ((c : Thread nD τ).loc main_arg0)) bitsLt_bf16_f32 := by
    show StableHlo.after hostOps0 (W0 m ρ c) (Proc.devRef .tc main_v0) = _
    after_results
  rw [e]; rfl

theorem weights1_apply (c : Dev nD) (k o : Fin 2048) :
    V1 m ρ c main_v2 (ix2 k o) = m ((c : Thread nD τ).loc main_arg1) (ix2 o k) := by
  have e : V1 m ρ c main_v2 = transpose (α := EReal) S2048x2048 [1, 0]
      (truncf (F := Ideal) .bf16 (m ((c : Thread nD τ).loc main_arg1)) bitsLt_bf16_f32) transposes_S2048x2048_S2048x2048_1_0 := by
    show StableHlo.after hostOps0 (W0 m ρ c) (Proc.devRef .tc main_v2) = _
    after_results
  rw [e]
  exact ValueIdx.transpose_ix2_apply _ _ k o

theorem bias1_apply (c : Dev nD) (o : Fin 2048) :
    V1 m ρ c main_v3 (ix2 (0 : Fin 1) o) = m ((c : Thread nD τ).loc main_arg2) (ix1 o) := by
  have e : V1 m ρ c main_v3 = shapeCast (α := EReal) S1x2048 (m ((c : Thread nD τ).loc main_arg2)) shapeCasts_S2048_S1x2048 := by
    show StableHlo.after hostOps0 (W0 m ρ c) (Proc.devRef .tc main_v3) = _
    after_results
    rfl
  rw [e]
  exact ValueIdx.shapeCast_a_1a_apply _ _ 0 o

theorem scale_apply (c : Dev nD) (o : Fin 2048) :
    V1 m ρ c main_v4 (ix2 (0 : Fin 1) o) = m ((c : Thread nD τ).loc main_arg3) (ix1 o) := by
  have e : V1 m ρ c main_v4 = shapeCast (α := EReal) S1x2048 (m ((c : Thread nD τ).loc main_arg3)) shapeCasts_S2048_S1x2048 := by
    show StableHlo.after hostOps0 (W0 m ρ c) (Proc.devRef .tc main_v4) = _
    after_results
    rfl
  rw [e]
  exact ValueIdx.shapeCast_a_1a_apply _ _ 0 o

theorem shift_apply (c : Dev nD) (o : Fin 2048) :
    V1 m ρ c main_v5 (ix2 (0 : Fin 1) o) = m ((c : Thread nD τ).loc main_arg4) (ix1 o) := by
  have e : V1 m ρ c main_v5 = shapeCast (α := EReal) S1x2048 (m ((c : Thread nD τ).loc main_arg4)) shapeCasts_S2048_S1x2048 := by
    show StableHlo.after hostOps0 (W0 m ρ c) (Proc.devRef .tc main_v5) = _
    after_results
    rfl
  rw [e]
  exact ValueIdx.shapeCast_a_1a_apply _ _ 0 o

/-- The first region's output, entry `(n, o)`, in the arguments. -/
theorem normalised_apply (c : Dev nD) (n : Fin 4096) (o : Fin 2048) :
    NormArray.entry (V1 m ρ) c n o
      = normRow (fun o' => affine (fun k => m ((c : Thread nD τ).loc main_arg0) (ix2 n k)) (fun k => m ((c : Thread nD τ).loc main_arg1) (ix2 o' k))
            (m ((c : Thread nD τ).loc main_arg2) (ix1 o')))
          (fun o' => m ((c : Thread nD τ).loc main_arg3) (ix1 o')) (fun o' => m ((c : Thread nD τ).loc main_arg4) (ix1 o')) o := by
  unfold NormArray.entry NormArray.hidden
  exact normRow_congr (fun o' => affine_congr (fun k => left_apply m ρ c n k) (fun k => weights1_apply m ρ c k o') (bias1_apply m ρ c o'))
    (fun o' => scale_apply m ρ c o') (fun o' => shift_apply m ρ c o') o

/-! ## What the second region finds -/

/-- Neither region's first stretch nor the first region writes the last two arguments. -/
theorem W2_weights3 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
theorem W2_bias3 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

/-- The second region's left array is the first region's output. -/
theorem left2_eq (c : Dev nD) : V7 m ρ c main_v6 = NormArray.arr (V1 m ρ) c := by
  have e : V7 m ρ c main_v6 = W2 m ρ c (Proc.devRef .tc main_v6) := by
    show StableHlo.after hostOps1_4 (StableHlo.after hostOps1_3 (StableHlo.after hostOps1_2 (StableHlo.after hostOps1_1 (StableHlo.after hostOps1 (W2 m ρ c))))) (Proc.devRef .tc main_v6) = _
    after_results
  rw [e]
  exact (W2_arr m ρ c 5).trans (NormArray.final (V1 m ρ) c)

/-- Column `v < 30000` of the second region's right array is row `v` of the second weight matrix. -/
theorem weights3_apply (c : Dev nD) (k : Fin 2048) (v : Fin 30000) (hv : v.val < 30720) :
    V7 m ρ c main_v10 (ix2 k (⟨v.val, hv⟩ : Fin 30720)) = m ((c : Thread nD τ).loc main_arg5) (ix2 v k) := by
  have e : V7 m ρ c main_v10 = transpose (α := EReal) S2048x30720 [1, 0]
      (truncf (F := Ideal) .bf16
        (pad (α := EReal) S30720x2048 ![0, 0] ![720, 0] ![0, 0] (W2 m ρ c (Proc.devRef .tc main_arg5))
          (sitofp (F := Ideal) .f32 (constantI S_ 32 0#32)) pads_S30000x2048_S30720x2048_07200_000 h_S_) bitsLt_bf16_f32)
      transposes_S30720x2048_S2048x30720_1_0 := by
    show StableHlo.after hostOps1_4 (StableHlo.after hostOps1_3 (StableHlo.after hostOps1_2 (StableHlo.after hostOps1_1 (StableHlo.after hostOps1 (W2 m ρ c))))) (Proc.devRef .tc main_v10) = _
    after_results
    rfl
  rw [e, W2_weights3]
  refine (ValueIdx.transpose_ix2_apply _ _ k (⟨v.val, hv⟩ : Fin 30720)).trans ?_
  refine pad_apply_of_inside (α := EReal) _ _ _ _ _ pads_S30000x2048_S30720x2048_07200_000 h_S_ _ (ix2 v k) fun a => ?_
  match a with
  | ⟨0, _⟩ => show v.val = 0 + v.val * (0 + 1); omega
  | ⟨1, _⟩ => show k.val = 0 + k.val * (0 + 1); omega

/-- Entry `v < 30000` of the second region's bias row is entry `v` of the second bias. -/
theorem bias3_apply (c : Dev nD) (v : Fin 30000) (hv : v.val < 30720) :
    V7 m ρ c main_v11 (ix2 (0 : Fin 1) (⟨v.val, hv⟩ : Fin 30720)) = m ((c : Thread nD τ).loc main_arg6) (ix1 v) := by
  have e : V7 m ρ c main_v11 = shapeCast (α := EReal) S1x30720
      (pad (α := EReal) S30720 ![0] ![720] ![0] (W2 m ρ c (Proc.devRef .tc main_arg6))
        (sitofp (F := Ideal) .f32 (constantI S_ 32 0#32)) pads_S30000_S30720_07200 h_S_) shapeCasts_S30720_S1x30720 := by
    show StableHlo.after hostOps1_4 (StableHlo.after hostOps1_3 (StableHlo.after hostOps1_2 (StableHlo.after hostOps1_1 (StableHlo.after hostOps1 (W2 m ρ c))))) (Proc.devRef .tc main_v11) = _
    after_results
    rfl
  rw [e, W2_bias3]
  refine (ValueIdx.shapeCast_a_1a_apply _ _ 0 (⟨v.val, hv⟩ : Fin 30720)).trans ?_
  refine pad_apply_of_inside (α := EReal) _ _ _ _ _ pads_S30000_S30720_07200 h_S_ _ (ix1 v) fun a => ?_
  match a with
  | ⟨0, _⟩ => show v.val = 0 + v.val * (0 + 1); omega

/-! ## The result -/

/-- The result buffer at the last boundary is the first 30000 columns of the second region's output. -/
theorem result_slice (c : Dev nD) :
    W9 m ρ c (Proc.devRef .tc main_v13)
      = extractStridedSlice (α := EReal) S4096x30000 ![0, 0] (ProjArray.arr (V7 m ρ) c) slices_S4096x30720_S4096x30000_0_0 := by
  have e : W9 m ρ c (Proc.devRef .tc main_v13)
      = extractStridedSlice (α := EReal) S4096x30000 ![0, 0] (W8 m ρ c (Proc.devRef .tc main_v12)) slices_S4096x30720_S4096x30000_0_0 := by
    show StableHlo.after hostOps2 (W8 m ρ c) (Proc.devRef .tc main_v13) = _
    after_results
  rw [e]
  exact congrArg (fun X => extractStridedSlice (α := EReal) S4096x30000 ![0, 0] X slices_S4096x30720_S4096x30000_0_0)
    ((W8_arr m ρ c 3).trans (ProjArray.final (V7 m ρ) c))

/-- The result buffer at the last boundary, as one function of the arguments. -/
theorem result_eq (c : Dev nD) :
    W9 m ρ c (Proc.devRef .tc main_v13)
      = logits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [result_slice]
  funext i
  obtain ⟨n, v, rfl⟩ : ∃ (n : Fin 4096) (v : Fin 30000), i = ix2 n v := ⟨i 0, i 1, eq_ix2 i⟩
  have hv : v.val < 30720 := by omega
  refine (extractStridedSlice_apply (α := EReal) _ _ slices_S4096x30720_S4096x30000_0_0 (ix2 n v) (ix2 n (⟨v.val, hv⟩ : Fin 30720)) fun a => ?_).trans ?_
  · match a with
    | ⟨0, _⟩ => show n.val = 0 + n.val; omega
    | ⟨1, _⟩ => show v.val = 0 + v.val; omega
  show ProjArray.entry (V7 m ρ) c n (⟨v.val, hv⟩ : Fin 30720) = logit _ _ _ _ _ _ _ n v
  unfold ProjArray.entry logit
  refine affine_congr (fun k => ?_) (fun k => weights3_apply m ρ c k v hv) (bias3_apply m ρ c v hv)
  rw [left2_eq]
  exact normalised_apply m ρ c n k

end Cert.KernelIdeal.KernelResult

end
-- ==== Proof.RefStages.lean ====
/-
  The reference's result, read one entry at a time, is the same function of the arguments.

  The reference computes the affine map on the whole `[4096, 2048]` array, takes each row's mean and offset variance with kept
  dimensions, normalises, and reads the result against the second weight matrix. Read at entry `(n, v)` every stage only
  looks at row `n`, so the result is `logit … n v`: the host's sums start from the zero word, which adds nothing.
-/
import proofs.«130865_j56444460204607_1_alg».proof.Proof.Gen.ReferenceIdeal.Read
import proofs.«130865_j56444460204607_1_alg».proof.Proof.RowFunctions

noncomputable section

namespace Cert.ReferenceIdeal.RefStages

open Cert.ReferenceIdeal Cert.ReferenceIdeal.Read Cert.RowFunctions
open Idealize.ShloMosaic Idealize.ShloMosaic.ValueIdx

variable (x0 : (⟨S4096x2048, .f32⟩ : BufTy).Contents (Elt Ideal)) (x1 : (⟨S2048x2048, .f32⟩ : BufTy).Contents (Elt Ideal))
  (x2 x3 x4 : (⟨S2048, .f32⟩ : BufTy).Contents (Elt Ideal)) (x5 : (⟨S30000x2048, .f32⟩ : BufTy).Contents (Elt Ideal))
  (x6 : (⟨S30000, .f32⟩ : BufTy).Contents (Elt Ideal))

/-- Row `n` after the first affine map. -/
abbrev hid (n : Fin 4096) (o : Fin 2048) : EReal := affine (fun k => x0 (ix2 n k)) (fun k => x1 (ix2 o k)) (x2 (ix1 o))

/-- The first affine map at entry `(n, o)`. -/
theorem hidden_apply (n : Fin 4096) (o : Fin 2048) : val_main_v3 (F := Ideal) x0 x1 x2 (ix2 n o) = hid x0 x1 x2 n o := by
  rw [val_main_v3_apply, val_main_v0_apply, val_main_v2_apply, val_main_v1_apply]
  refine congrArg₂ (fun u v : EReal => u + v) (Finset.sum_congr rfl fun k _ => congrArg₂ (fun u v : EReal => u * v) (congrArg x0 ?_) (congrArg x1 ?_)) (congrArg x2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The kept-dimension mean at row `n` is the mean of that row. -/
theorem rowMean_apply (n : Fin 4096) (u : Fin 1) : val_main_v7 (F := Ideal) x0 x1 x2 (ix2 n u) = mean (hid x0 x1 x2 n) := by
  rw [val_main_v7_apply, val_main_v5_apply, val_main_v4_apply, val_main_v6_apply, val_main_cst_0_apply, val_main_cst_apply]
  show Ideal.div (Ideal.ofBits .f32 0x00000000#32 + ∑ k : Fin 2048, _) rowLen = Ideal.div _ rowLen
  rw [Ideal.ofBits_zero_f32, zero_add]
  refine congrArg (Ideal.div · rowLen) (Finset.sum_congr rfl fun k _ => ?_)
  refine Eq.trans (congrArg (val_main_v3 (F := Ideal) x0 x1 x2) ?_) (hidden_apply x0 x1 x2 n k)
  exact funext fun a => Fin.ext (by match a with | ⟨0, _⟩ => rfl | ⟨1, _⟩ => rfl)

/-- The centred row (the reference computes it twice; this is the first). -/
theorem centred_apply (n : Fin 4096) (o : Fin 2048) :
    val_main_v9 (F := Ideal) x0 x1 x2 (ix2 n o) = hid x0 x1 x2 n o - mean (hid x0 x1 x2 n) := by
  rw [val_main_v9_apply, val_main_v8_apply, hidden_apply]
  refine congrArg (hid x0 x1 x2 n o - ·) (Eq.trans (congrArg (val_main_v7 (F := Ideal) x0 x1 x2) ?_) (rowMean_apply x0 x1 x2 n 0))
  exact funext fun a => Fin.ext (by match a with | ⟨0, _⟩ => rfl | ⟨1, _⟩ => rfl)

/-- The centred row, second copy. -/
theorem centred_apply' (n : Fin 4096) (o : Fin 2048) :
    val_main_v16 (F := Ideal) x0 x1 x2 (ix2 n o) = hid x0 x1 x2 n o - mean (hid x0 x1 x2 n) := by
  rw [val_main_v16_apply, val_main_v15_apply, hidden_apply]
  refine congrArg (hid x0 x1 x2 n o - ·) (Eq.trans (congrArg (val_main_v7 (F := Ideal) x0 x1 x2) ?_) (rowMean_apply x0 x1 x2 n 0))
  exact funext fun a => Fin.ext (by match a with | ⟨0, _⟩ => rfl | ⟨1, _⟩ => rfl)

/-- The kept-dimension variance at row `n`. -/
theorem rowVar_apply (n : Fin 4096) (u : Fin 1) :
    val_main_v14 (F := Ideal) x0 x1 x2 (ix2 n u)
      = mean (fun o => (hid x0 x1 x2 n o - mean (hid x0 x1 x2 n)) * (hid x0 x1 x2 n o - mean (hid x0 x1 x2 n))) := by
  rw [val_main_v14_apply, val_main_v12_apply, val_main_v11_apply, val_main_v13_apply, val_main_cst_2_apply, val_main_cst_1_apply]
  show Ideal.div (Ideal.ofBits .f32 0x00000000#32 + ∑ k : Fin 2048, _) rowLen = Ideal.div _ rowLen
  rw [Ideal.ofBits_zero_f32, zero_add]
  refine congrArg (Ideal.div · rowLen) (Finset.sum_congr rfl fun k _ => ?_)
  refine Eq.trans (congrArg (val_main_v10 (F := Ideal) x0 x1 x2) (a₂ := ix2 n k) ?_) ?_
  · exact funext fun a => Fin.ext (by match a with | ⟨0, _⟩ => rfl | ⟨1, _⟩ => rfl)
  · rw [val_main_v10_apply, centred_apply]; rfl

/-- The normalised array at entry `(n, o)`. -/
theorem normalised_apply (n : Fin 4096) (o : Fin 2048) :
    val_main_v27 (F := Ideal) x0 x1 x2 x3 x4 (ix2 n o)
      = normRow (hid x0 x1 x2 n) (fun o' => x3 (ix1 o')) (fun o' => x4 (ix1 o')) o := by
  rw [val_main_v27_apply, val_main_v24_apply, val_main_v21_apply, centred_apply', val_main_v20_apply, val_main_v19_apply,
    val_main_v18_apply, val_main_v17_apply, val_main_cst_3_apply, val_main_v23_apply, val_main_v22_apply, val_main_v26_apply, val_main_v25_apply]
  unfold normRow
  refine congrArg₂ (fun u v : EReal => u + v) (congrArg₂ (fun u v : EReal => u * v) (congrArg₂ (fun u v : EReal => u * v) rfl
    (congrArg Ideal.rsqrt (congrArg₂ (fun u v : EReal => u + v) ?_ rfl))) (congrArg x3 ?_)) (congrArg x4 ?_)
  · refine Eq.trans (congrArg (val_main_v14 (F := Ideal) x0 x1 x2) (a₂ := ix2 n (0 : Fin 1)) ?_) (rowVar_apply x0 x1 x2 n 0)
    exact funext fun a => Fin.ext (by match a with | ⟨0, _⟩ => rfl | ⟨1, _⟩ => rfl)
  · exact funext fun a => Fin.ext (by match a with | ⟨0, _⟩ => rfl)
  · exact funext fun a => Fin.ext (by match a with | ⟨0, _⟩ => rfl)

/-- The reference's result at entry `(n, v)`. -/
theorem result_apply (n : Fin 4096) (v : Fin 30000) :
    val_main_v31 (F := Ideal) x0 x1 x2 x3 x4 x5 x6 (ix2 n v) = logit x0 x1 x2 x3 x4 x5 x6 n v := by
  rw [val_main_v31_apply, val_main_v28_apply, val_main_v30_apply, val_main_v29_apply]
  unfold logit
  refine congrArg₂ (fun u v : EReal => u + v) (Finset.sum_congr rfl fun k _ => congrArg₂ (fun u v : EReal => u * v) ?_ (congrArg x5 ?_)) (congrArg x6 ?_)
  · refine Eq.trans (congrArg (val_main_v27 (F := Ideal) x0 x1 x2 x3 x4) (a₂ := ix2 n k) ?_) (normalised_apply x0 x1 x2 x3 x4 n k)
    exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The reference's result array is `logits` of the arguments. -/
theorem result_eq : val_main_v31 (F := Ideal) x0 x1 x2 x3 x4 x5 x6 = logits x0 x1 x2 x3 x4 x5 x6 := by
  funext i
  obtain ⟨n, v, rfl⟩ : ∃ (n : Fin 4096) (v : Fin 30000), i = ix2 n v := ⟨i 0, i 1, eq_ix2 i⟩
  exact result_apply x0 x1 x2 x3 x4 x5 x6 n v

end Cert.ReferenceIdeal.RefStages

end
-- ==== Proof.lean ====
/-
  The fused head: an affine map of each input row, the row normalised (mean, offset variance, reciprocal square root, scale
  and shift), and a second affine map onto 30000 outputs. The kernel program does it in two tiled regions — row blocks of
  512 for the first map and the normalisation, a 4 × 20 grid of 1024 × 1536 blocks for the second map over a weight matrix
  padded with 720 zero rows that the final slice drops — with format changes that are the identity on the extended reals.
  The reference does it on whole arrays. Entry `(n, v)` of either result depends on row `n` of the input alone, and is the
  same expression `RowFunctions.logit … n v`: no law beyond re-indexing the sums is used, so the precondition is never opened.

  The three frames: the kernel programs' are the generated ones; the reference's is its generated run with the result
  dropped. The idealisation rewrote nothing, so `preserves` is `True`. `algebraic`: the kernel's run with its result buffer
  named (ResultRun, KernelResult) against the reference's generated run read stage by stage (RefStages).
-/
import proofs.«130865_j56444460204607_1_alg».proof.Defs
import proofs.«130865_j56444460204607_1_alg».proof.Proof.Gen.Kernel
import proofs.«130865_j56444460204607_1_alg».proof.Proof.Gen.Kernel.Skeleton
import proofs.«130865_j56444460204607_1_alg».proof.Proof.Gen.Kernel.Launch
import proofs.«130865_j56444460204607_1_alg».proof.Proof.Gen.Kernel.Points
import proofs.«130865_j56444460204607_1_alg».proof.Proof.Gen.Kernel.Frame
import proofs.«130865_j56444460204607_1_alg».proof.Proof.Gen.KernelIdeal
import proofs.«130865_j56444460204607_1_alg».proof.Proof.Gen.KernelIdeal.Skeleton
import proofs.«130865_j56444460204607_1_alg».proof.Proof.Gen.KernelIdeal.Launch
import proofs.«130865_j56444460204607_1_alg».proof.Proof.Gen.KernelIdeal.Points
import proofs.«130865_j56444460204607_1_alg».proof.Proof.Gen.KernelIdeal.Frame
import proofs.«130865_j56444460204607_1_alg».proof.Proof.Gen.ReferenceIdeal
import proofs.«130865_j56444460204607_1_alg».proof.Proof.Gen.ReferenceIdeal.Run
import proofs.«130865_j56444460204607_1_alg».proof.Proof.Gen.ReferenceIdeal.Read
import proofs.«130865_j56444460204607_1_alg».proof.Proof.Gen.Pre_finite_inputs
import proofs.«130865_j56444460204607_1_alg».proof.Proof.ResultRun
import proofs.«130865_j56444460204607_1_alg».proof.Proof.KernelResult
import proofs.«130865_j56444460204607_1_alg».proof.Proof.RefStages
import Idealize.ShloMosaic.Adequacy
import Idealize.ShloMosaic.Init

noncomputable section

namespace Cert.Proof

open Idealize.ShloMosaic Idealize.ShloMosaic.TcCoe Idealize.SL.Sem Cert.RowFunctions

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array `logits` of the arguments. -/
theorem algebraic : Cert.algebraic_KernelIdeal_ReferenceIdeal := by
  intro m ρ m' ρ' _ hagree
  refine ⟨fun c => logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelResult.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v31_eq _ _ _ _ _ _ _).trans (Cert.ReferenceIdeal.RefStages.result_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
